-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x1x25 : Shape := ⟨4, ![1, 64, 1, 25]⟩
abbrev S1x9x64x25 : Shape := ⟨4, ![1, 9, 64, 25]⟩
abbrev S3x25x25 : Shape := ⟨3, ![3, 25, 25]⟩
abbrev S_ : Shape := ⟨0, ![]⟩

class Facts : Prop where
  bcast_S_S1x64x1x25 : S_.BroadcastsInDim S1x64x1x25 (![] : Fin 0 → Fin S1x64x1x25.rank)
  reducesTo_S1x64x1x25_S_d0_1_2_3 : S1x64x1x25.ReducesTo [0, 1, 2, 3] S_
  h_S_ : 0 < S_.numel
  bcast_S_S1x9x64x25 : S_.BroadcastsInDim S1x9x64x25 (![] : Fin 0 → Fin S1x9x64x25.rank)
  reducesTo_S1x9x64x25_S_d0_1_2_3 : S1x9x64x25.ReducesTo [0, 1, 2, 3] S_
  bcast_S_S3x25x25 : S_.BroadcastsInDim S3x25x25 (![] : Fin 0 → Fin S3x25x25.rank)
  reducesTo_S3x25x25_S_d0_1_2 : S3x25x25.ReducesTo [0, 1, 2] S_

variable [Facts]

def fn_part2 {F : FTy → Type} [FloatOps F] (main_arg7 : FVec F S3x25x25 .f32) (main_v33 : IVec S_ 1) : IVec S_ 1 :=
  let main_v34 : FVec F S3x25x25 .f32 := Host.absf main_arg7
  let main_cst_12 : FVec F S_ .f32 := constant S_ .f32 0x7F800000#32
  let main_v35 : FVec F S3x25x25 .f32 := broadcastInDim S3x25x25 ![] bcast_S_S3x25x25 main_cst_12
  let main_v36 : IVec S3x25x25 1 := cmpf .olt main_v34 main_v35
  let main_c_13 : IVec S_ 1 := constantI S_ 1 1#1
  let main_v37 : IVec S_ 1 := (fun x v => Host.reduce IntOp.andi x v reducesTo_S3x25x25_S_d0_1_2 h_S_) main_v36 main_c_13
  let main_v38 : IVec S_ 1 := andi main_v33 main_v37
  main_v38

def fn_part1 {F : FTy → Type} [FloatOps F] (main_arg4 : FVec F S1x9x64x25 .f32) (main_arg5 : FVec F S3x25x25 .f32) (main_arg6 : FVec F S3x25x25 .f32) (main_arg7 : FVec F S3x25x25 .f32) (main_v13 : IVec S_ 1) (main_v16 : IVec S1x64x1x25 1) : IVec S_ 1 :=
  let main_c_5 : IVec S_ 1 := constantI S_ 1 1#1
  let main_v17 : IVec S_ 1 := (fun x v => Host.reduce IntOp.andi x v reducesTo_S1x64x1x25_S_d0_1_2_3 h_S_) main_v16 main_c_5
  let main_v18 : IVec S_ 1 := andi main_v13 main_v17
  let main_v19 : FVec F S1x9x64x25 .f32 := Host.absf main_arg4
  let main_cst_6 : FVec F S_ .f32 := constant S_ .f32 0x7F800000#32
  let main_v20 : FVec F S1x9x64x25 .f32 := broadcastInDim S1x9x64x25 ![] bcast_S_S1x9x64x25 main_cst_6
  let main_v21 : IVec S1x9x64x25 1 := cmpf .olt main_v19 main_v20
  let main_c_7 : IVec S_ 1 := constantI S_ 1 1#1
  let main_v22 : IVec S_ 1 := (fun x v => Host.reduce IntOp.andi x v reducesTo_S1x9x64x25_S_d0_1_2_3 h_S_) main_v21 main_c_7
  let main_v23 : IVec S_ 1 := andi main_v18 main_v22
  let main_v24 : FVec F S3x25x25 .f32 := Host.absf main_arg5
  let main_cst_8 : FVec F S_ .f32 := constant S_ .f32 0x7F800000#32
  let main_v25 : FVec F S3x25x25 .f32 := broadcastInDim S3x25x25 ![] bcast_S_S3x25x25 main_cst_8
  let main_v26 : IVec S3x25x25 1 := cmpf .olt main_v24 main_v25
  let main_c_9 : IVec S_ 1 := constantI S_ 1 1#1
  let main_v27 : IVec S_ 1 := (fun x v => Host.reduce IntOp.andi x v reducesTo_S3x25x25_S_d0_1_2 h_S_) main_v26 main_c_9
  let main_v28 : IVec S_ 1 := andi main_v23 main_v27
  let main_v29 : FVec F S3x25x25 .f32 := Host.absf main_arg6
  let main_cst_10 : FVec F S_ .f32 := constant S_ .f32 0x7F800000#32
  let main_v30 : FVec F S3x25x25 .f32 := broadcastInDim S3x25x25 ![] bcast_S_S3x25x25 main_cst_10
  let main_v31 : IVec S3x25x25 1 := cmpf .olt main_v29 main_v30
  let main_c_11 : IVec S_ 1 := constantI S_ 1 1#1
  let main_v32 : IVec S_ 1 := (fun x v => Host.reduce IntOp.andi x v reducesTo_S3x25x25_S_d0_1_2 h_S_) main_v31 main_c_11
  let main_v33 : IVec S_ 1 := andi main_v28 main_v32
  fn_part2 (F := F) main_arg7 main_v33

def fn {F : FTy → Type} [FloatOps F] (main_arg0 : FVec F S1x64x1x25 .f32) (main_arg1 : FVec F S1x64x1x25 .f32) (main_arg2 : FVec F S1x64x1x25 .f32) (main_arg3 : FVec F S1x64x1x25 .f32) (main_arg4 : FVec F S1x9x64x25 .f32) (main_arg5 : FVec F S3x25x25 .f32) (main_arg6 : FVec F S3x25x25 .f32) (main_arg7 : FVec F S3x25x25 .f32) : IVec S_ 1 :=
  let main_v0 : FVec F S1x64x1x25 .f32 := Host.absf main_arg0
  let main_cst : FVec F S_ .f32 := constant S_ .f32 0x7F800000#32
  let main_v1 : FVec F S1x64x1x25 .f32 := broadcastInDim S1x64x1x25 ![] bcast_S_S1x64x1x25 main_cst
  let main_v2 : IVec S1x64x1x25 1 := cmpf .olt main_v0 main_v1
  let main_c : IVec S_ 1 := constantI S_ 1 1#1
  let main_v3 : IVec S_ 1 := (fun x v => Host.reduce IntOp.andi x v reducesTo_S1x64x1x25_S_d0_1_2_3 h_S_) main_v2 main_c
  let main_v4 : FVec F S1x64x1x25 .f32 := Host.absf main_arg1
  let main_cst_0 : FVec F S_ .f32 := constant S_ .f32 0x7F800000#32
  let main_v5 : FVec F S1x64x1x25 .f32 := broadcastInDim S1x64x1x25 ![] bcast_S_S1x64x1x25 main_cst_0
  let main_v6 : IVec S1x64x1x25 1 := cmpf .olt main_v4 main_v5
  let main_c_1 : IVec S_ 1 := constantI S_ 1 1#1
  let main_v7 : IVec S_ 1 := (fun x v => Host.reduce IntOp.andi x v reducesTo_S1x64x1x25_S_d0_1_2_3 h_S_) main_v6 main_c_1
  let main_v8 : IVec S_ 1 := andi main_v3 main_v7
  let main_v9 : FVec F S1x64x1x25 .f32 := Host.absf main_arg2
  let main_cst_2 : FVec F S_ .f32 := constant S_ .f32 0x7F800000#32
  let main_v10 : FVec F S1x64x1x25 .f32 := broadcastInDim S1x64x1x25 ![] bcast_S_S1x64x1x25 main_cst_2
  let main_v11 : IVec S1x64x1x25 1 := cmpf .olt main_v9 main_v10
  let main_c_3 : IVec S_ 1 := constantI S_ 1 1#1
  let main_v12 : IVec S_ 1 := (fun x v => Host.reduce IntOp.andi x v reducesTo_S1x64x1x25_S_d0_1_2_3 h_S_) main_v11 main_c_3
  let main_v13 : IVec S_ 1 := andi main_v8 main_v12
  let main_v14 : FVec F S1x64x1x25 .f32 := Host.absf main_arg3
  let main_cst_4 : FVec F S_ .f32 := constant S_ .f32 0x7F800000#32
  let main_v15 : FVec F S1x64x1x25 .f32 := broadcastInDim S1x64x1x25 ![] bcast_S_S1x64x1x25 main_cst_4
  let main_v16 : IVec S1x64x1x25 1 := cmpf .olt main_v14 main_v15
  fn_part1 (F := F) main_arg4 main_arg5 main_arg6 main_arg7 main_v13 main_v16
-- ==== Kernel.lean ====
abbrev S1x64x1x25 : Shape := ⟨4, ![1, 64, 1, 25]⟩
abbrev S1x9x64x25 : Shape := ⟨4, ![1, 9, 64, 25]⟩
abbrev S3x25x25 : Shape := ⟨3, ![3, 25, 25]⟩
abbrev S64x25 : Shape := ⟨2, ![64, 25]⟩
abbrev S9x64x25 : Shape := ⟨3, ![9, 64, 25]⟩
abbrev S8x64x25 : Shape := ⟨3, ![8, 64, 25]⟩

abbrev nBuf : Space → Nat
  | .hbm => 9
  | .vmem => 6
  | .smem => 0
  | _ => 0

abbrev bufTy : (tb : Table) → Fin (tcTables nBuf tb) → BufTy
  | .hbm, ⟨0, _⟩ => ⟨S1x64x1x25, .f32⟩
  | .hbm, ⟨1, _⟩ => ⟨S1x64x1x25, .f32⟩
  | .hbm, ⟨2, _⟩ => ⟨S1x64x1x25, .f32⟩
  | .hbm, ⟨3, _⟩ => ⟨S1x64x1x25, .f32⟩
  | .hbm, ⟨4, _⟩ => ⟨S1x9x64x25, .f32⟩
  | .hbm, ⟨5, _⟩ => ⟨S3x25x25, .f32⟩
  | .hbm, ⟨6, _⟩ => ⟨S3x25x25, .f32⟩
  | .hbm, ⟨7, _⟩ => ⟨S3x25x25, .f32⟩
  | .hbm, ⟨8, _⟩ => ⟨S1x64x1x25, .f32⟩
  | .local _ .vmem, ⟨0, _⟩ => ⟨S1x64x1x25, .f32⟩
  | .local _ .vmem, ⟨1, _⟩ => ⟨S1x64x1x25, .f32⟩
  | .local _ .vmem, ⟨2, _⟩ => ⟨S1x64x1x25, .f32⟩
  | .local _ .vmem, ⟨3, _⟩ => ⟨S1x64x1x25, .f32⟩
  | .local _ .vmem, ⟨4, _⟩ => ⟨S1x9x64x25, .f32⟩
  | .local _ .vmem, ⟨5, _⟩ => ⟨S1x64x1x25, .f32⟩
  | _, _ => ⟨S1x64x1x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S1x64x1x25 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x64x1x25 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64x1x25 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64x1x25 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x9x64x25 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64x1x25 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  inb_S1x64x1x25_S1x64x1x25_0_0_0_0 : ∀ a, (![0, 0, 0, 0] : Fin 4 → Nat) a + S1x64x1x25.size a ≤ S1x64x1x25.size a
  h_S1x64x1x25 : 0 < S1x64x1x25.numel
  shapeCasts_S1x64x1x25_S64x25 : S1x64x1x25.ShapeCasts S64x25
  inb_S1x9x64x25_S1x9x64x25_0_0_0_0 : ∀ a, (![0, 0, 0, 0] : Fin 4 → Nat) a + S1x9x64x25.size a ≤ S1x9x64x25.size a
  h_S1x9x64x25 : 0 < S1x9x64x25.numel
  shapeCasts_S1x9x64x25_S9x64x25 : S1x9x64x25.ShapeCasts S9x64x25
  slices_S9x64x25_o0_0_0_S8x64x25 : S9x64x25.Slices ![0, 0, 0] S8x64x25
  reduces_S8x64x25_S64x25 : S8x64x25.Reduces [0] S64x25
  shapeCasts_S64x25_S1x64x1x25 : S64x25.ShapeCasts S1x64x1x25
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x64x1x25.size a ≤ S1x64x1x25.size a
  hwx0_0 : ∀ i : grid0.Coords, EltTy.bits .f32 = 32 ∨ (Rect.block (s := S1x64x1x25) S1x64x1x25.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64x1x25.size a ≤ S1x64x1x25.size a
  hwx0_1 : ∀ i : grid0.Coords, EltTy.bits .f32 = 32 ∨ (Rect.block (s := S1x64x1x25) S1x64x1x25.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64x1x25.size a ≤ S1x64x1x25.size a
  hwx0_2 : ∀ i : grid0.Coords, EltTy.bits .f32 = 32 ∨ (Rect.block (s := S1x64x1x25) S1x64x1x25.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64x1x25.size a ≤ S1x64x1x25.size a
  hwx0_3 : ∀ i : grid0.Coords, EltTy.bits .f32 = 32 ∨ (Rect.block (s := S1x64x1x25) S1x64x1x25.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x9x64x25.size a ≤ S1x9x64x25.size a
  hwx0_4 : ∀ i : grid0.Coords, EltTy.bits .f32 = 32 ∨ (Rect.block (s := S1x9x64x25) S1x9x64x25.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64x1x25.size a ≤ S1x64x1x25.size a
  hwx0_5 : ∀ i : grid0.Coords, EltTy.bits .f32 = 32 ∨ (Rect.block (s := S1x64x1x25) S1x64x1x25.size (cc0_transform_5 i) (hinb0_5 i)).WholeWords (EltTy.packing .f32)

variable [Facts₀]

abbrev win0_0 : Pipeline.Window sig grid0 :=
  Pipeline.Window.ofSpec (Memref.whole main_arg0) S1x64x1x25.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x1x25.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x1x25.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64x1x25.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x9x64x25.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x64x1x25.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x64x1x25 : Shape := ⟨4, ![1, 64, 1, 25]⟩
abbrev S1x9x64x25 : Shape := ⟨4, ![1, 9, 64, 25]⟩
abbrev S3x25x25 : Shape := ⟨3, ![3, 25, 25]⟩
abbrev S1x1x64x25 : Shape := ⟨4, ![1, 1, 64, 25]⟩
abbrev S1x8x64x25 : Shape := ⟨4, ![1, 8, 64, 25]⟩
abbrev S_ : Shape := ⟨0, ![]⟩
abbrev S1x64x25 : Shape := ⟨3, ![1, 64, 25]⟩

abbrev nBuf : Space → Nat
  | .hbm => 23
  | .vmem => 0
  | .smem => 0
  | _ => 0

abbrev bufTy : (tb : Table) → Fin (tcTables nBuf tb) → BufTy
  | .hbm, ⟨0, _⟩ => ⟨S1x64x1x25, .f32⟩
  | .hbm, ⟨1, _⟩ => ⟨S1x64x1x25, .f32⟩
  | .hbm, ⟨2, _⟩ => ⟨S1x64x1x25, .f32⟩
  | .hbm, ⟨3, _⟩ => ⟨S1x64x1x25, .f32⟩
  | .hbm, ⟨4, _⟩ => ⟨S1x9x64x25, .f32⟩
  | .hbm, ⟨5, _⟩ => ⟨S3x25x25, .f32⟩
  | .hbm, ⟨6, _⟩ => ⟨S3x25x25, .f32⟩
  | .hbm, ⟨7, _⟩ => ⟨S3x25x25, .f32⟩
  | .hbm, ⟨8, _⟩ => ⟨S1x64x1x25, .f32⟩
  | .hbm, ⟨9, _⟩ => ⟨S1x64x1x25, .f32⟩
  | .hbm, ⟨10, _⟩ => ⟨S1x1x64x25, .f32⟩
  | .hbm, ⟨11, _⟩ => ⟨S1x8x64x25, .f32⟩
  | .hbm, ⟨12, _⟩ => ⟨S1x9x64x25, .f32⟩
  | .hbm, ⟨13, _⟩ => ⟨S_, .f32⟩
  | .hbm, ⟨14, _⟩ => ⟨S1x64x25, .f32⟩
  | .hbm, ⟨15, _⟩ => ⟨S1x64x1x25, .f32⟩
  | .hbm, ⟨16, _⟩ => ⟨S_, .f32⟩
  | .hbm, ⟨17, _⟩ => ⟨S1x64x1x25, .f32⟩
  | .hbm, ⟨18, _⟩ => ⟨S1x64x1x25, .f32⟩
  | .hbm, ⟨19, _⟩ => ⟨S1x64x1x25, .f32⟩
  | .hbm, ⟨20, _⟩ => ⟨S_, .f32⟩
  | .hbm, ⟨21, _⟩ => ⟨S1x64x1x25, .f32⟩
  | .hbm, ⟨22, _⟩ => ⟨S1x64x1x25, .f32⟩
  | _, _ => ⟨S1x64x1x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩

abbrev nD : Nat := 1
abbrev τ : Topo := Topo.v7x

variable {F : FTy → Type} [FloatOps F]

class Facts₀ : Prop where
  transposes_S1x64x1x25_S1x1x64x25_0_2_1_3 : S1x64x1x25.Transposes [0, 2, 1, 3] S1x1x64x25
  slices_S1x9x64x25_S1x8x64x25_0_0_0_0 : S1x9x64x25.Slices ![0, 0, 0, 0] S1x8x64x25
  concatenates_S1x1x64x25_S1x8x64x25_S1x9x64x25_d1 : Shape.Concatenates [S1x1x64x25, S1x8x64x25] S1x9x64x25 1
  reducesTo_S1x9x64x25_S1x64x25_d1 : S1x9x64x25.ReducesTo [1] S1x64x25
  h_S_ : 0 < S_.numel
  shapeCasts_S1x64x25_S1x64x1x25 : S1x64x25.ShapeCasts S1x64x1x25
  bcast_S_S1x64x1x25 : S_.BroadcastsInDim S1x64x1x25 (![] : Fin 0 → Fin S1x64x1x25.rank)

variable [Facts₀]

class Facts : Prop extends Facts₀ where

variable [Facts]
-- ==== Proof.Spec.lean ====
/-
  The online layer's arithmetic, stated once over plain extended-real arrays and free of either program.

  A frame is 64 channels by 25 joints (stored as [1, 64, 1, 25]); the FIFO holds nine frames, newest first
  ([1, 9, 64, 25]). One step pushes the frame `x1 + x2 + x3` in front of the FIFO's eight newest frames, sums
  the nine slots, clamps at zero, adds the residual frame and clamps at zero again. Summing the nine slots of
  the shifted FIFO is the pushed frame plus the sum of the eight kept ones: that is the only law the two
  programs differ by, and it is associativity of `+` on the extended reals, so no finiteness is needed.
-/
import Idealize.ShloMosaic.PureOps.Ideal
import Idealize.ShloMosaic.PureOps.Ideal.Laws
import Idealize.ShloMosaic.Lib.ValueIdx

noncomputable section

open Idealize.ShloMosaic

namespace Cert.OnlineLayer

/-- One frame: 64 channels by 25 joints, with the two unit axes the layer carries. -/
abbrev Frame : Shape := ⟨4, ![1, 64, 1, 25]⟩
/-- The FIFO: nine frames, slot 0 the newest. -/
abbrev Fifo : Shape := ⟨4, ![1, 9, 64, 25]⟩

/-- Slot `s` of the FIFO at the channel and joint of the frame index `i`. -/
abbrev slotAt (i : Frame.Idx) (s : Fin 9) : Fifo.Idx := fun a => match a with
  | ⟨0, _⟩ => ⟨0, Nat.one_pos⟩
  | ⟨1, _⟩ => ⟨s.val, s.isLt⟩
  | ⟨2, _⟩ => ⟨(i 1).val, (i 1).isLt⟩
  | ⟨3, _⟩ => ⟨(i 3).val, (i 3).isLt⟩

/-- The layer's output frame: `relu (relu ((x1 + x2 + x3) + Σ_{s < 8} fifo[s]) + res)`, entry by entry. -/
def step (res x1 x2 x3 : Frame.Idx → EReal) (fifo : Fifo.Idx → EReal) : Frame.Idx → EReal := fun i =>
  max (max (x1 i + x2 i + x3 i + ∑ s : Fin 8, fifo (slotAt i s.castSucc)) 0 + res i) 0

/-- Nine slots summed from zero are the newest slot plus the other eight. -/
theorem sum_slots (h : Fin 9 → EReal) : 0 + ∑ k : Fin 9, h k = h 0 + ∑ s : Fin 8, h s.succ := by
  rw [zero_add, Fin.sum_univ_succ]

end Cert.OnlineLayer

end
-- ==== Proof.KernelValue.lean ====
/-
  The kernel's result array, read entry by entry, is the layer's step function of the argument arrays.

  The grid has one point and every window's block is its whole array, so the body sees the four frames and the
  whole FIFO. It casts the FIFO block to [9, 64, 25], cuts slots 0..7, sums them over the slot axis, adds the
  pushed frame `x1 + x2 + x3`, clamps at zero, adds the residual frame, clamps again and stores the frame whole.
  At the exact values the slot sum at (channel, joint) is the sum over `s < 8` of the FIFO at (s, channel, joint),
  so the stored block is the step function of the loaded blocks; the one write-back covers the result array.
-/
import proofs.«110244_j70557722739217_1_alg».proof.Proof.Gen.KernelIdeal.Value
import proofs.«110244_j70557722739217_1_alg».proof.Proof.Spec
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Cert.OnlineLayer

/-! ## The block the body leaves -/

/-- The FIFO block, cast to [9, 64, 25] and cut to its first eight slots, read at slot `s` of the channel and joint
    of a frame index: the FIFO block's slot `s` there. -/
theorem kept_slot (P3 : FVec Ideal S1x9x64x25 .f32) (y : S1x64x1x25.Idx) (s : Fin 8) :
    extractStridedSlice S8x64x25 ![0, 0, 0] (shapeCast S9x64x25 P3 shapeCasts_S1x9x64x25_S9x64x25) slices_S9x64x25_o0_0_0_S8x64x25
        (reduces_S8x64x25_S64x25.lift (ix5_3 y) s)
      = P3 (slotAt y s.castSucc) := by
  refine (extractStridedSlice_apply ![0, 0, 0] _ slices_S9x64x25_o0_0_0_S8x64x25 _
    (fun a => match a with
      | ⟨0, _⟩ => ⟨s.val, by have := s.isLt; show s.val < 9; omega⟩
      | ⟨1, _⟩ => ⟨(y 1).val, (y 1).isLt⟩
      | ⟨2, _⟩ => ⟨(y 3).val, (y 3).isLt⟩ : S9x64x25.Idx)
    (fun a => match a with
      | ⟨0, _⟩ => by show s.val = 0 + s.val; omega
      | ⟨1, _⟩ => by show (y 1).val = 0 + (y 1).val; omega
      | ⟨2, _⟩ => by show (y 3).val = 0 + (y 3).val; omega)).trans ?_
  exact shapeCast_apply P3 shapeCasts_S1x9x64x25_S9x64x25 _ (slotAt y s.castSucc) (by
    rw [Shape.rowMajor_val_four, Shape.rowMajor_val_three]
    show ((0 * 9 + s.val) * 64 + (y 1).val) * 25 + (y 3).val = (s.val * 64 + (y 1).val) * 25 + (y 3).val
    omega)

/-- The sum over the slot axis of the eight kept slots, at the channel and joint of a frame index. -/
theorem kept_sum (P3 : FVec Ideal S1x9x64x25 .f32) (y : S1x64x1x25.Idx) :
    multiReduction .add [0] S64x25 (extractStridedSlice S8x64x25 ![0, 0, 0] (shapeCast S9x64x25 P3 shapeCasts_S1x9x64x25_S9x64x25) slices_S9x64x25_o0_0_0_S8x64x25)
        0x00000000#32 reduces_S8x64x25_S64x25 (.inl rfl) rfl (ix5_3 y)
      = ∑ s : Fin 8, P3 (slotAt y s.castSucc) := by
  refine (Ideal.multiReduction_add_single _ _ reduces_S8x64x25_S64x25 _ _ (ix5_3 y)).trans ?_
  exact Finset.sum_congr rfl fun s _ => kept_slot P3 y s

/-- A frame index has only its channel and joint free: the block index the body's loads are read at is the index. -/
theorem frame_idx (y : S1x64x1x25.Idx) : ix5_0 y = y := by
  have hy0 : (y 0).val < 1 := (y 0).isLt
  have hy2 : (y 2).val < 1 := (y 2).isLt
  funext a
  apply Fin.ext
  match a with
  | ⟨0, _⟩ => show 0 = (y 0).val; omega
  | ⟨1, _⟩ => rfl
  | ⟨2, _⟩ => show 0 = (y 2).val; omega
  | ⟨3, _⟩ => rfl

/-- The block the body leaves is the step function of the blocks it loaded (`P4` the residual frame, `P0`, `P1`, `P2`
    the three summed frames, `P3` the FIFO). -/
theorem block_eq (P0 P1 P2 P4 : FVec Ideal S1x64x1x25 .f32) (P3 : FVec Ideal S1x9x64x25 .f32) (y : S1x64x1x25.Idx) :
    E5 (F := Ideal) P0 P1 P2 P3 P4 y = step P4 P0 P1 P2 P3 y := by
  have e0 : ix5_0 y = y := frame_idx y
  have e1 : ix5_1 y = y := frame_idx y
  have e2 : ix5_2 y = y := frame_idx y
  have e4 : ix5_4 y = y := frame_idx y
  show max (max (P0 (ix5_0 y) + P1 (ix5_1 y) + P2 (ix5_2 y)
      + multiReduction .add [0] S64x25 (extractStridedSlice S8x64x25 ![0, 0, 0] (shapeCast S9x64x25 P3 shapeCasts_S1x9x64x25_S9x64x25) slices_S9x64x25_o0_0_0_S8x64x25)
          0x00000000#32 reduces_S8x64x25_S64x25 (.inl rfl) rfl (ix5_3 y)) (Ideal.ofBits .f32 0x00000000#32) + P4 (ix5_4 y)) (Ideal.ofBits .f32 0x00000000#32) = _
  rw [e0, e1, e2, e4, kept_sum, Ideal.ofBits_zero_f32]
  rfl

/-- The step function at one index reads its operands only at that index and at the index's nine FIFO slots. -/
theorem step_congr {res x1 x2 x3 res' x1' x2' x3' : Frame.Idx → EReal} {f f' : Fifo.Idx → EReal} (i : Frame.Idx)
    (h0 : res i = res' i) (h1 : x1 i = x1' i) (h2 : x2 i = x2' i) (h3 : x3 i = x3' i)
    (h4 : ∀ s : Fin 9, f (slotAt i s) = f' (slotAt i s)) :
    step res x1 x2 x3 f i = step res' x1' x2' x3' f' i := by
  unfold step
  rw [h0, h1, h2, h3]
  simp only [h4]

/-! ## From the block to the array -/

variable (m : (ℓ : Loc nD τ sig) → Buf (Elt Ideal) ℓ) (ρ : Dev nD → PrngReg)

theorem zero4 : (![0, 0, 0, 0] : Fin 4 → Nat) = fun _ => 0 := funext fun a => by fin_cases a <;> rfl

/-- Every window's block index is zero on every axis at the grid's one point. -/
theorem idx_zero : ∀ t : Fin cfg0.N,
    (win0_0.index t (0 : Fin 4) = 0 ∧ win0_0.index t (1 : Fin 4) = 0 ∧ win0_0.index t (2 : Fin 4) = 0 ∧ win0_0.index t (3 : Fin 4) = 0)
    ∧ (win0_1.index t (0 : Fin 4) = 0 ∧ win0_1.index t (1 : Fin 4) = 0 ∧ win0_1.index t (2 : Fin 4) = 0 ∧ win0_1.index t (3 : Fin 4) = 0)
    ∧ (win0_2.index t (0 : Fin 4) = 0 ∧ win0_2.index t (1 : Fin 4) = 0 ∧ win0_2.index t (2 : Fin 4) = 0 ∧ win0_2.index t (3 : Fin 4) = 0)
    ∧ (win0_3.index t (0 : Fin 4) = 0 ∧ win0_3.index t (1 : Fin 4) = 0 ∧ win0_3.index t (2 : Fin 4) = 0 ∧ win0_3.index t (3 : Fin 4) = 0)
    ∧ (win0_4.index t (0 : Fin 4) = 0 ∧ win0_4.index t (1 : Fin 4) = 0 ∧ win0_4.index t (2 : Fin 4) = 0 ∧ win0_4.index t (3 : Fin 4) = 0)
    ∧ (win0_5.index t (0 : Fin 4) = 0 ∧ win0_5.index t (1 : Fin 4) = 0 ∧ win0_5.index t (2 : Fin 4) = 0 ∧ win0_5.index t (3 : Fin 4) = 0) :=
  (by decide +kernel : ∀ t : Fin grid0.N, _)

/-- The residual frame's block is its array. -/
theorem blk0 (c : Dev nD) (t : Fin cfg0.N) (y : S1x64x1x25.Idx) :
    (iblk m c 0 t : Vec Ideal S1x64x1x25 .f32) y = (V m c main_arg0 : S1x64x1x25.Idx → EReal) y := by
  obtain ⟨⟨e0, e1, e2, e3⟩, -⟩ := idx_zero t
  unfold iblk
  rw [View.read_apply]
  show V m c main_arg0 _ = V m c main_arg0 y
  congr 1
  funext a
  apply Fin.ext
  match a with
  | ⟨0, _⟩ => show win0_0.index t (0 : Fin 4) * 1 + 1 * (y 0).val = (y 0).val; rw [e0]; omega
  | ⟨1, _⟩ => show win0_0.index t (1 : Fin 4) * 64 + 1 * (y 1).val = (y 1).val; rw [e1]; omega
  | ⟨2, _⟩ => show win0_0.index t (2 : Fin 4) * 1 + 1 * (y 2).val = (y 2).val; rw [e2]; omega
  | ⟨3, _⟩ => show win0_0.index t (3 : Fin 4) * 25 + 1 * (y 3).val = (y 3).val; rw [e3]; omega

/-- The first summed frame's block is its array. -/
theorem blk1 (c : Dev nD) (t : Fin cfg0.N) (y : S1x64x1x25.Idx) :
    (iblk m c 1 t : Vec Ideal S1x64x1x25 .f32) y = (V m c main_arg1 : S1x64x1x25.Idx → EReal) y := by
  obtain ⟨-, ⟨e0, e1, e2, e3⟩, -⟩ := idx_zero t
  unfold iblk
  rw [View.read_apply]
  show V m c main_arg1 _ = V m c main_arg1 y
  congr 1
  funext a
  apply Fin.ext
  match a with
  | ⟨0, _⟩ => show win0_1.index t (0 : Fin 4) * 1 + 1 * (y 0).val = (y 0).val; rw [e0]; omega
  | ⟨1, _⟩ => show win0_1.index t (1 : Fin 4) * 64 + 1 * (y 1).val = (y 1).val; rw [e1]; omega
  | ⟨2, _⟩ => show win0_1.index t (2 : Fin 4) * 1 + 1 * (y 2).val = (y 2).val; rw [e2]; omega
  | ⟨3, _⟩ => show win0_1.index t (3 : Fin 4) * 25 + 1 * (y 3).val = (y 3).val; rw [e3]; omega

/-- The second summed frame's block is its array. -/
theorem blk2 (c : Dev nD) (t : Fin cfg0.N) (y : S1x64x1x25.Idx) :
    (iblk m c 2 t : Vec Ideal S1x64x1x25 .f32) y = (V m c main_arg2 : S1x64x1x25.Idx → EReal) y := by
  obtain ⟨-, -, ⟨e0, e1, e2, e3⟩, -⟩ := idx_zero t
  unfold iblk
  rw [View.read_apply]
  show V m c main_arg2 _ = V m c main_arg2 y
  congr 1
  funext a
  apply Fin.ext
  match a with
  | ⟨0, _⟩ => show win0_2.index t (0 : Fin 4) * 1 + 1 * (y 0).val = (y 0).val; rw [e0]; omega
  | ⟨1, _⟩ => show win0_2.index t (1 : Fin 4) * 64 + 1 * (y 1).val = (y 1).val; rw [e1]; omega
  | ⟨2, _⟩ => show win0_2.index t (2 : Fin 4) * 1 + 1 * (y 2).val = (y 2).val; rw [e2]; omega
  | ⟨3, _⟩ => show win0_2.index t (3 : Fin 4) * 25 + 1 * (y 3).val = (y 3).val; rw [e3]; omega

/-- The third summed frame's block is its array. -/
theorem blk3 (c : Dev nD) (t : Fin cfg0.N) (y : S1x64x1x25.Idx) :
    (iblk m c 3 t : Vec Ideal S1x64x1x25 .f32) y = (V m c main_arg3 : S1x64x1x25.Idx → EReal) y := by
  obtain ⟨-, -, -, ⟨e0, e1, e2, e3⟩, -⟩ := idx_zero t
  unfold iblk
  rw [View.read_apply]
  show V m c main_arg3 _ = V m c main_arg3 y
  congr 1
  funext a
  apply Fin.ext
  match a with
  | ⟨0, _⟩ => show win0_3.index t (0 : Fin 4) * 1 + 1 * (y 0).val = (y 0).val; rw [e0]; omega
  | ⟨1, _⟩ => show win0_3.index t (1 : Fin 4) * 64 + 1 * (y 1).val = (y 1).val; rw [e1]; omega
  | ⟨2, _⟩ => show win0_3.index t (2 : Fin 4) * 1 + 1 * (y 2).val = (y 2).val; rw [e2]; omega
  | ⟨3, _⟩ => show win0_3.index t (3 : Fin 4) * 25 + 1 * (y 3).val = (y 3).val; rw [e3]; omega

/-- The FIFO's block is its array. -/
theorem blk4 (c : Dev nD) (t : Fin cfg0.N) (z : S1x9x64x25.Idx) :
    (iblk m c 4 t : Vec Ideal S1x9x64x25 .f32) z = (V m c main_arg4 : S1x9x64x25.Idx → EReal) z := by
  obtain ⟨-, -, -, -, ⟨e0, e1, e2, e3⟩, -⟩ := idx_zero t
  unfold iblk
  rw [View.read_apply]
  show V m c main_arg4 _ = V m c main_arg4 z
  congr 1
  funext a
  apply Fin.ext
  match a with
  | ⟨0, _⟩ => show win0_4.index t (0 : Fin 4) * 1 + 1 * (z 0).val = (z 0).val; rw [e0]; omega
  | ⟨1, _⟩ => show win0_4.index t (1 : Fin 4) * 9 + 1 * (z 1).val = (z 1).val; rw [e1]; omega
  | ⟨2, _⟩ => show win0_4.index t (2 : Fin 4) * 64 + 1 * (z 2).val = (z 2).val; rw [e2]; omega
  | ⟨3, _⟩ => show win0_4.index t (3 : Fin 4) * 25 + 1 * (z 3).val = (z 3).val; rw [e3]; omega

/-- An index of the result's block is the same index of the result array. -/
theorem emb5 (t : Fin cfg0.N) (y : S1x64x1x25.Idx) : ((cfg0.win 5).blk t).view.emb y = y := by
  obtain ⟨-, -, -, -, -, e0, e1, e2, e3⟩ := idx_zero t
  funext a
  apply Fin.ext
  match a with
  | ⟨0, _⟩ => show win0_5.index t (0 : Fin 4) * 1 + 1 * (y 0).val = (y 0).val; rw [e0]; omega
  | ⟨1, _⟩ => show win0_5.index t (1 : Fin 4) * 64 + 1 * (y 1).val = (y 1).val; rw [e1]; omega
  | ⟨2, _⟩ => show win0_5.index t (2 : Fin 4) * 1 + 1 * (y 2).val = (y 2).val; rw [e2]; omega
  | ⟨3, _⟩ => show win0_5.index t (3 : Fin 4) * 25 + 1 * (y 3).val = (y 3).val; rw [e3]; omega

/-- The result array as the step function of the argument arrays the region finds. -/
abbrev result (c : Dev nD) : S1x64x1x25.Idx → EReal :=
  step (V m c main_arg0) (V m c main_arg1) (V m c main_arg2) (V m c main_arg3) (V m c main_arg4)

/-- What the one point writes back is the block of `result` under it. -/
theorem flushed_eq (c : Dev nD) (t : Fin cfg0.N) :
    (dats m 0 c).flushed 5 t = ((cfg0.win 5).blk t).view.read (Elt Ideal) (result m c) := by
  rw [flushed5]
  unfold out0_5
  simp only [View.ld_unit_zero (S := S1x64x1x25) zero4, View.ld_unit_zero (S := S1x9x64x25) zero4]
  funext j
  show (View.canon [⟨r0_0, k0_pay1 (F := Ideal) (iblk m c 0 t) (iblk m c 1 t) (iblk m c 2 t) (iblk m c 3 t) (iblk m c 4 t)⟩] : Vec Ideal S1x64x1x25 .f32) j
    = result m c (((cfg0.win 5).blk t).view.emb j)
  refine (canon5_eq (F := Ideal) (iblk m c 1 t) (iblk m c 2 t) (iblk m c 3 t) (iblk m c 4 t) (iblk m c 0 t) j).trans ?_
  refine (block_eq (iblk m c 1 t) (iblk m c 2 t) (iblk m c 3 t) (iblk m c 0 t) (iblk m c 4 t) j).trans ?_
  rw [emb5 t j]
  exact step_congr j (blk0 m c t j) (blk1 m c t j) (blk2 m c t j) (blk3 m c t j) (fun s => blk4 m c t _)

/-- Every index of the result array lies in the one point's block. -/
theorem covered (i : S1x64x1x25.Idx) :
    ∃ t : Fin cfg0.N, (cfg0.win 5).flush t = true ∧ i ∈ ((cfg0.win 5).blk t).view.set := by
  refine ⟨t0_0, flush0_5 t0_0, ?_⟩
  obtain ⟨-, -, -, -, -, e0, e1, e2, e3⟩ := idx_zero t0_0
  have h0 : (i 0).val < 1 := (i 0).isLt
  have h1 : (i 1).val < 64 := (i 1).isLt
  have h2 : (i 2).val < 1 := (i 2).isLt
  have h3 : (i 3).val < 25 := (i 3).isLt
  show i ∈ ((View.whole main_v0).slice (win0_5.rect t0_0)).set
  rw [View.set_slice_whole, Rect.mem_set_unit]
  intro a
  match a with
  | ⟨0, _⟩ => show win0_5.index t0_0 (0 : Fin 4) * 1 ≤ (i 0).val ∧ (i 0).val < win0_5.index t0_0 (0 : Fin 4) * 1 + 1; rw [e0]; omega
  | ⟨1, _⟩ => show win0_5.index t0_0 (1 : Fin 4) * 64 ≤ (i 1).val ∧ (i 1).val < win0_5.index t0_0 (1 : Fin 4) * 64 + 64; rw [e1]; omega
  | ⟨2, _⟩ => show win0_5.index t0_0 (2 : Fin 4) * 1 ≤ (i 2).val ∧ (i 2).val < win0_5.index t0_0 (2 : Fin 4) * 1 + 1; rw [e2]; omega
  | ⟨3, _⟩ => show win0_5.index t0_0 (3 : Fin 4) * 25 ≤ (i 3).val ∧ (i 3).val < win0_5.index t0_0 (3 : Fin 4) * 25 + 25; rw [e3]; omega

/-- So the result array ends holding `result`. -/
theorem final (c : Dev nD) : (dats m 0 c).arrAt 5 cfg0.N = result m c :=
  (dats m 0 c).arrAt_eq_of_cover 5 (result m c) (fun t _ => flushed_eq m c t) covered

/-- The kernel's run, read: the result array at the step function of the arguments as launched, the arguments unchanged. -/
theorem run : θ_run defs (onTc (τ := τ) (main (F := Ideal))) ⟨m, fun _ => 0, ρ⟩ fun r => ∀ c : Dev nD,
      r.2.mem ((c : Thread nD τ).loc main_v0)
          = step (m ((c : Thread nD τ).loc main_arg0)) (m ((c : Thread nD τ).loc main_arg1)) (m ((c : Thread nD τ).loc main_arg2))
              (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Hand

end
-- ==== Proof.RefValue.lean ====
/-
  The reference program's result, read entry by entry, is the layer's step function of its arguments.

  The host program transposes the pushed frame `x1 + x2 + x3` to [1, 1, 64, 25], cuts the FIFO's eight newest frames
  [1, 8, 64, 25], joins the two along the slot axis, sums the nine slots from zero, reshapes the [1, 64, 25] sum to a
  frame, and applies `max · 0`, `+ res`, `max · 0`. Slot 0 of the joined array is the pushed frame at the same channel
  and joint; slot `s + 1` is the FIFO's slot `s`. So the nine-slot sum from zero is the pushed frame plus the sum
  of the eight kept slots.
-/
import proofs.«110244_j70557722739217_1_alg».proof.Proof.Gen.ReferenceIdeal.Read
import proofs.«110244_j70557722739217_1_alg».proof.Proof.Spec
import Idealize.ShloMosaic.Lib.Pipeline.Value
import Idealize.ShloMosaic.PureOps.Ideal.Laws

noncomputable section

open Idealize.ShloMosaic Idealize.ShloMosaic.TcCoe

namespace Cert.ReferenceIdeal.Hand

open Cert.ReferenceIdeal Cert.ReferenceIdeal.Gen Cert.ReferenceIdeal.Read Cert.OnlineLayer

variable (x0 x1 x2 x3 : FVec Ideal S1x64x1x25 .f32) (x4 : FVec Ideal S1x9x64x25 .f32)

/-- The frame index at the channel and joint of an index of the [1, 64, 25] slot sum. -/
abbrev frameAt (j : S1x64x25.Idx) : S1x64x1x25.Idx := fun a => match a with
  | ⟨0, _⟩ => ⟨(j 0).val, (j 0).isLt⟩
  | ⟨1, _⟩ => ⟨(j 1).val, (j 1).isLt⟩
  | ⟨2, _⟩ => ⟨0, Nat.one_pos⟩
  | ⟨3, _⟩ => ⟨(j 2).val, (j 2).isLt⟩

/-- Slot 0 of the joined array is the pushed frame `x1 + x2 + x3`, read through the transpose. -/
theorem newest (j : S1x64x25.Idx) :
    val_main_v4 (F := Ideal) x1 x2 x3 x4 (idx_main_v5 j 0) = x1 (frameAt j) + x2 (frameAt j) + x3 (frameAt j) := by
  unfold val_main_v4
  refine (concatenate_pair_apply_left (t := S1x9x64x25) (s₁ := S1x1x64x25) (s₂ := S1x8x64x25) (1 : Fin 4)
    (val_main_v2 (F := Ideal) x1 x2 x3) (val_main_v3 (F := Ideal) x4) concatenates_S1x1x64x25_S1x8x64x25_S1x9x64x25_d1 (idx_main_v5 j 0) rfl
    (fun a => match a with
      | ⟨0, _⟩ => ⟨(j 0).val, (j 0).isLt⟩
      | ⟨1, _⟩ => ⟨0, Nat.one_pos⟩
      | ⟨2, _⟩ => ⟨(j 1).val, (j 1).isLt⟩
      | ⟨3, _⟩ => ⟨(j 2).val, (j 2).isLt⟩ : S1x1x64x25.Idx)
    (fun b => match b with
      | ⟨0, _⟩ => rfl
      | ⟨1, _⟩ => rfl
      | ⟨2, _⟩ => rfl
      | ⟨3, _⟩ => rfl)).trans ?_
  rw [val_main_v2_apply]
  rfl

/-- Slot `s + 1` of the joined array is the FIFO's slot `s`, read through the cut of its eight newest frames. -/
theorem kept (j : S1x64x25.Idx) (s : Fin 8) :
    val_main_v4 (F := Ideal) x1 x2 x3 x4 (idx_main_v5 j s.succ) = x4 (slotAt (frameAt j) s.castSucc) := by
  have hj0 : (j 0).val < 1 := (j 0).isLt
  unfold val_main_v4
  refine (concatenate_pair_apply_right (t := S1x9x64x25) (s₁ := S1x1x64x25) (s₂ := S1x8x64x25) (1 : Fin 4)
    (val_main_v2 (F := Ideal) x1 x2 x3) (val_main_v3 (F := Ideal) x4) concatenates_S1x1x64x25_S1x8x64x25_S1x9x64x25_d1 (idx_main_v5 j s.succ) rfl rfl
    (fun a => match a with
      | ⟨0, _⟩ => ⟨(j 0).val, (j 0).isLt⟩
      | ⟨1, _⟩ => ⟨s.val, s.isLt⟩
      | ⟨2, _⟩ => ⟨(j 1).val, (j 1).isLt⟩
      | ⟨3, _⟩ => ⟨(j 2).val, (j 2).isLt⟩ : S1x8x64x25.Idx)
    (fun b hb => match b, hb with
      | ⟨0, _⟩, _ => rfl
      | ⟨1, _⟩, hb => absurd rfl hb
      | ⟨2, _⟩, _ => rfl
      | ⟨3, _⟩, _ => rfl)
    (by show s.val + 1 = s.succ.val; rw [Fin.val_succ])).trans ?_
  rw [val_main_v3_apply]
  refine congrArg x4 (funext fun a => Fin.ext ?_)
  match a with
  | ⟨0, _⟩ => show (j 0).val = 0; omega
  | ⟨1, _⟩ => rfl
  | ⟨2, _⟩ => rfl
  | ⟨3, _⟩ => rfl

/-- The nine-slot sum from zero, at an index of the [1, 64, 25] sum: the pushed frame plus the eight kept slots. -/
theorem slots_sum (j : S1x64x25.Idx) :
    val_main_v5 (F := Ideal) x1 x2 x3 x4 j
      = x1 (frameAt j) + x2 (frameAt j) + x3 (frameAt j) + ∑ s : Fin 8, x4 (slotAt (frameAt j) s.castSucc) := by
  rw [val_main_v5_apply, val_main_cst_apply, Ideal.ofBits_def, Ideal.ofBits_zero_f32,
    sum_slots fun k => val_main_v4 (F := Ideal) x1 x2 x3 x4 (idx_main_v5 j k), newest]
  exact congrArg (_ + ·) (Finset.sum_congr rfl fun s _ => kept x1 x2 x3 x4 j s)

/-- The reference's result is the step function of its arguments. -/
theorem result_eq : val_main_v9 (F := Ideal) x0 x1 x2 x3 x4 = step x0 x1 x2 x3 x4 := by
  funext i
  have h0 : (i 0).val < 1 := (i 0).isLt
  have h1 : (i 1).val < 64 := (i 1).isLt
  have h2 : (i 2).val < 1 := (i 2).isLt
  have h3 : (i 3).val < 25 := (i 3).isLt
  have hi : frameAt (idx_main_v6 i) = i := funext fun a => Fin.ext (by
    match a with
    | ⟨0, _⟩ => show 0 = (i 0).val; omega
    | ⟨1, _⟩ => show ((((i 0).val * 64 + (i 1).val) * 1 + (i 2).val) * 25 + (i 3).val) / 25 % 64 = (i 1).val; omega
    | ⟨2, _⟩ => show 0 = (i 2).val; omega
    | ⟨3, _⟩ => show ((((i 0).val * 64 + (i 1).val) * 1 + (i 2).val) * 25 + (i 3).val) % 25 = (i 3).val; omega)
  rw [val_main_v9_apply, val_main_v8_apply, val_main_v7_apply, val_main_v6_apply, slots_sum, hi,
    val_main_call0_v0_apply, val_main_call0_cst_apply, val_main_call1_v0_apply, val_main_call1_cst_apply]
  simp only [Ideal.maximumf_def, Ideal.addf_def, Ideal.ofBits_def, Ideal.ofBits_zero_f32]
  rfl

end Cert.ReferenceIdeal.Hand

end
-- ==== Proof.lean ====
/-
  One step of an online graph-convolution layer: the frame `x1 + x2 + x3` is pushed in front of a FIFO of nine
  frames, the nine slots of the shifted FIFO are summed, and the sum goes through `max · 0`, `+ res`, `max · 0`.

  The kernel never builds the shifted FIFO: it adds the pushed frame to the sum of the FIFO's eight newest slots.
  The reference joins the pushed frame and those eight slots along the slot axis and sums the nine from zero.
  Over the extended reals both are `max (max (x1 + x2 + x3 + Σ_{s < 8} fifo[s]) 0 + res) 0` at every channel and
  joint (`Cert.OnlineLayer.step`): the only law between them is that a nine-term sum from zero is its first term
  plus the other eight, which holds for any extended reals, so the finiteness of the inputs is never used.
  The three programs' frames are the generated ones; the idealization rewrote nothing, so `preserves` is `True`.
-/
import proofs.«110244_j70557722739217_1_alg».proof.Defs
import proofs.«110244_j70557722739217_1_alg».proof.Proof.Gen.Kernel
import proofs.«110244_j70557722739217_1_alg».proof.Proof.Gen.Kernel.Skeleton
import proofs.«110244_j70557722739217_1_alg».proof.Proof.Gen.Kernel.Launch
import proofs.«110244_j70557722739217_1_alg».proof.Proof.Gen.Kernel.Points
import proofs.«110244_j70557722739217_1_alg».proof.Proof.Gen.Kernel.Frame
import proofs.«110244_j70557722739217_1_alg».proof.Proof.Gen.KernelIdeal
import proofs.«110244_j70557722739217_1_alg».proof.Proof.Gen.KernelIdeal.Skeleton
import proofs.«110244_j70557722739217_1_alg».proof.Proof.Gen.KernelIdeal.Launch
import proofs.«110244_j70557722739217_1_alg».proof.Proof.Gen.KernelIdeal.Points
import proofs.«110244_j70557722739217_1_alg».proof.Proof.Gen.KernelIdeal.Frame
import proofs.«110244_j70557722739217_1_alg».proof.Proof.Gen.ReferenceIdeal
import proofs.«110244_j70557722739217_1_alg».proof.Proof.Gen.Pre_finite_inputs
import proofs.«110244_j70557722739217_1_alg».proof.Proof.KernelValue
import proofs.«110244_j70557722739217_1_alg».proof.Proof.RefValue
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read at the exact values. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the step function of the arguments in their
    result array: the kernel by its one write-back, the reference by its operations read one at a time. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1]
  exact (Cert.ReferenceIdeal.Read.val_main_v9_eq _ _ _ _ _).trans (Cert.ReferenceIdeal.Hand.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
